-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x3200000 : Shape := ⟨2, ![2, 3200000]⟩
abbrev S32x8 : Shape := ⟨2, ![32, 8]⟩
abbrev S8 : Shape := ⟨1, ![8]⟩
abbrev S8x1 : Shape := ⟨2, ![8, 1]⟩
abbrev S1 : Shape := ⟨1, ![1]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S32x8 : S_.BroadcastsInDim S32x8 (![] : Fin 0 → Fin S32x8.rank)
  reducesTo_S32x8_S_d0_1 : S32x8.ReducesTo [0, 1] S_
  bcast_S_S8 : S_.BroadcastsInDim S8 (![] : Fin 0 → Fin S8.rank)
  reducesTo_S8_S_d0 : S8.ReducesTo [0] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S8x1 1) : IVec S_ 1 :=
  let main_c_5 : IVec S_ 1 := constantI S_ 1 1#1
  let main_v17 : IVec S_ 1 := (fun x v => Host.reduce IntOp.andi x v reducesTo_S8x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x16 .f32) (main_arg1 : IVec S2x3200000 32) (main_arg2 : FVec F S32x8 .f32) (main_arg3 : FVec F S8 .f32) (main_arg4 : FVec F S8x1 .f32) (main_arg5 : FVec F S1 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S32x8 .f32 := Host.absf main_arg2
  let main_cst_0 : FVec F S_ .f32 := constant S_ .f32 0x7F800000#32
  let main_v5 : FVec F S32x8 .f32 := broadcastInDim S32x8 ![] bcast_S_S32x8 main_cst_0
  let main_v6 : IVec S32x8 1 := cmpf .olt main_v4 main_v5
  let main_c_1 : IVec S_ 1 := constantI S_ 1 1#1
  let main_v7 : IVec S_ 1 := (fun x v => Host.reduce IntOp.andi x v reducesTo_S32x8_S_d0_1 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x1 .f32 := Host.absf main_arg4
  let main_cst_4 : FVec F S_ .f32 := constant S_ .f32 0x7F800000#32
  let main_v15 : FVec F S8x1 .f32 := broadcastInDim S8x1 ![] bcast_S_S8x1 main_cst_4
  let main_v16 : IVec S8x1 1 := cmpf .olt main_v14 main_v15
  fn_part1 (F := F) main_arg5 main_v13 main_v16
-- ==== Kernel.lean ====
abbrev S100000x16 : Shape := ⟨2, ![100000, 16]⟩
abbrev S2x3200000 : Shape := ⟨2, ![2, 3200000]⟩
abbrev S32x8 : Shape := ⟨2, ![32, 8]⟩
abbrev S8 : Shape := ⟨1, ![8]⟩
abbrev S8x1 : Shape := ⟨2, ![8, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3203072 : Shape := ⟨1, ![3203072]⟩
abbrev S3203072x1 : Shape := ⟨2, ![3203072, 1]⟩
abbrev S3203072x16 : Shape := ⟨2, ![3203072, 16]⟩
abbrev S3203072x32 : Shape := ⟨2, ![3203072, 32]⟩
abbrev S8192x32 : Shape := ⟨2, ![8192, 32]⟩
abbrev S8192x1 : Shape := ⟨2, ![8192, 1]⟩
abbrev S8192x8 : Shape := ⟨2, ![8192, 8]⟩
abbrev S1x8 : Shape := ⟨2, ![1, 8]⟩
abbrev S1x1 : Shape := ⟨2, ![1, 1]⟩
abbrev S3200000x1 : Shape := ⟨2, ![3200000, 1]⟩

abbrev nBuf : Space → Nat
  | .hbm => 40
  | .vmem => 8
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S32x8, .f32⟩
  | .hbm, ⟨3, _⟩ => ⟨S8, .f32⟩
  | .hbm, ⟨4, _⟩ => ⟨S8x1, .f32⟩
  | .hbm, ⟨5, _⟩ => ⟨S1, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .i32⟩
  | .hbm, ⟨11, _⟩ => ⟨S_, .i32⟩
  | .hbm, ⟨12, _⟩ => ⟨S3203072, .i32⟩
  | .hbm, ⟨13, _⟩ => ⟨S_, .i32⟩
  | .hbm, ⟨14, _⟩ => ⟨S_, .i32⟩
  | .hbm, ⟨15, _⟩ => ⟨S3203072, .i32⟩
  | .hbm, ⟨16, _⟩ => ⟨S_, .i32⟩
  | .hbm, ⟨17, _⟩ => ⟨S3203072, .i32⟩
  | .hbm, ⟨18, _⟩ => ⟨S3203072, .i1⟩
  | .hbm, ⟨19, _⟩ => ⟨S_, .i32⟩
  | .hbm, ⟨20, _⟩ => ⟨S3203072, .i32⟩
  | .hbm, ⟨21, _⟩ => ⟨S3203072, .i32⟩
  | .hbm, ⟨22, _⟩ => ⟨S3203072, .i32⟩
  | .hbm, ⟨23, _⟩ => ⟨S3203072x1, .i32⟩
  | .hbm, ⟨24, _⟩ => ⟨S3203072x16, .f32⟩
  | .hbm, ⟨25, _⟩ => ⟨S_, .i32⟩
  | .hbm, ⟨26, _⟩ => ⟨S3203072, .i32⟩
  | .hbm, ⟨27, _⟩ => ⟨S3203072, .i1⟩
  | .hbm, ⟨28, _⟩ => ⟨S_, .i32⟩
  | .hbm, ⟨29, _⟩ => ⟨S3203072, .i32⟩
  | .hbm, ⟨30, _⟩ => ⟨S3203072, .i32⟩
  | .hbm, ⟨31, _⟩ => ⟨S3203072, .i32⟩
  | .hbm, ⟨32, _⟩ => ⟨S3203072x1, .i32⟩
  | .hbm, ⟨33, _⟩ => ⟨S3203072x16, .f32⟩
  | .hbm, ⟨34, _⟩ => ⟨S3203072x32, .f32⟩
  | .hbm, ⟨35, _⟩ => ⟨S3203072x32, .bf16⟩
  | .hbm, ⟨36, _⟩ => ⟨S32x8, .bf16⟩
  | .hbm, ⟨37, _⟩ => ⟨S8x1, .bf16⟩
  | .hbm, ⟨38, _⟩ => ⟨S3203072x1, .f32⟩
  | .hbm, ⟨39, _⟩ => ⟨S3200000x1, .f32⟩
  | .local _ .vmem, ⟨0, _⟩ => ⟨S8192x32, .bf16⟩
  | .local _ .vmem, ⟨1, _⟩ => ⟨S8192x32, .bf16⟩
  | .local _ .vmem, ⟨2, _⟩ => ⟨S32x8, .bf16⟩
  | .local _ .vmem, ⟨3, _⟩ => ⟨S8, .f32⟩
  | .local _ .vmem, ⟨4, _⟩ => ⟨S8x1, .bf16⟩
  | .local _ .vmem, ⟨5, _⟩ => ⟨S1, .f32⟩
  | .local _ .vmem, ⟨6, _⟩ => ⟨S8192x1, .f32⟩
  | .local _ .vmem, ⟨7, _⟩ => ⟨S8192x1, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![391], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  pads_S3200000_S3203072_030720 : S3200000.Pads (![0] : Fin 1 → Nat) ![3072] ![0] S3203072
  h_S_ : 0 < S_.numel
  bcast_S_S3203072 : S_.BroadcastsInDim S3203072 (![] : Fin 0 → Fin S3203072.rank)
  bcast_S3203072_S3203072x1_0 : S3203072.BroadcastsInDim S3203072x1 (![0] : Fin 1 → Fin S3203072x1.rank)
  concatenates_S3203072x16_S3203072x16_S3203072x32_d1 : Shape.Concatenates [S3203072x16, S3203072x16] S3203072x32 1
  bitsLt_bf16_f32 : FTy.bits .bf16 < FTy.bits .f32
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  inb_S32x8_S32x8_0_0 : ∀ a, (![0, 0] : Fin 2 → Nat) a + S32x8.size a ≤ S32x8.size a
  h_S32x8 : 0 < S32x8.numel
  shapeCasts_S32x8_S32x8 : S32x8.ShapeCasts S32x8
  inb_S8_S8_0 : ∀ a, (![0] : Fin 1 → Nat) a + S8.size a ≤ S8.size a
  h_S8 : 0 < S8.numel
  shapeCasts_S8_S1x8 : S8.ShapeCasts S1x8
  broadcasts_S1x8_S8192x8 : S1x8.Broadcasts S8192x8
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S1_S1_0 : ∀ a, (![0] : Fin 1 → Nat) a + S1.size a ≤ S1.size a
  h_S1 : 0 < S1.numel
  shapeCasts_S1_S1x1 : S1.ShapeCasts S1x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  slices_S3203072x1_S3200000x1_0_0 : S3203072x1.Slices ![0, 0] S3200000x1
  gather_S100000x16_S3203072x1_S3203072x16_1_0_n_n_0_1_116_wf : GatherDims.WF S100000x16 S3203072x1 S3203072x16 [1] [0] [] [0] [] 1 ![1, 16]
  dot_S8192x32_S32x8_S8192x8_1_0_0_1_n_n_wf : DotDims.WF S8192x32 S32x8 S8192x8 [1] [0] [0] [1] [] []
  dot_S8192x8_S8x1_S8192x1_1_0_0_1_n_n_wf : DotDims.WF S8192x8 S8x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x32.size a ≤ S3203072x32.size a
  hwx0_0 : ∀ i : grid0.Coords, EltTy.bits .bf16 = 32 ∨ (Rect.block (s := S3203072x32) S8192x32.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x8.size a ≤ S32x8.size a
  hwx0_1 : ∀ i : grid0.Coords, EltTy.bits .bf16 = 32 ∨ (Rect.block (s := S32x8) S32x8.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8.size a ≤ S8.size a
  hwx0_2 : ∀ i : grid0.Coords, EltTy.bits .f32 = 32 ∨ (Rect.block (s := S8) S8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S8x1.size a
  hwx0_3 : ∀ i : grid0.Coords, EltTy.bits .bf16 = 32 ∨ (Rect.block (s := S8x1) S8x1.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x1.size a ≤ S3203072x1.size a
  hwx0_5 : ∀ i : grid0.Coords, EltTy.bits .f32 = 32 ∨ (Rect.block (s := S3203072x1) S8192x1.size (cc0_transform_5 i) (hinb0_5 i)).WholeWords (EltTy.packing .f32)

variable [Facts₀]

def gather_S100000x16_S3203072x1_S3203072x16_1_0_n_n_0_1_116 : GatherDims S100000x16 S3203072x1 S3203072x16 where
  offsetDims := [1]
  collapsedSliceDims := [0]
  operandBatchingDims := []
  startIndicesBatchingDims := []
  startIndexMap := [0]
  indexVectorDim := 1
  sliceSizes := ![1, 16]
  wf := gather_S100000x16_S3203072x1_S3203072x16_1_0_n_n_0_1_116_wf
def dot_S8192x32_S32x8_S8192x8_1_0_0_1_n_n : DotDims S8192x32 S32x8 S8192x8 where
  lhsContracting := [1]
  rhsContracting := [0]
  lhsNonContracting := [0]
  rhsNonContracting := [1]
  lhsBatch := []
  rhsBatch := []
  wf := dot_S8192x32_S32x8_S8192x8_1_0_0_1_n_n_wf
def dot_S8192x8_S8x1_S8192x1_1_0_0_1_n_n : DotDims S8192x8 S8x1 S8192x1 where
  lhsContracting := [1]
  rhsContracting := [0]
  lhsNonContracting := [0]
  rhsNonContracting := [1]
  lhsBatch := []
  rhsBatch := []
  wf := dot_S8192x8_S8x1_S8192x1_1_0_0_1_n_n_wf

abbrev win0_0 : Pipeline.Window sig grid0 :=
  Pipeline.Window.ofSpec (Memref.whole main_v21) S8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S32x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S8x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S8192x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x16 : Shape := ⟨2, ![100000, 16]⟩
abbrev S2x3200000 : Shape := ⟨2, ![2, 3200000]⟩
abbrev S32x8 : Shape := ⟨2, ![32, 8]⟩
abbrev S8 : Shape := ⟨1, ![8]⟩
abbrev S8x1 : Shape := ⟨2, ![8, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x16 : Shape := ⟨2, ![3200000, 16]⟩
abbrev S3200000x32 : Shape := ⟨2, ![3200000, 32]⟩
abbrev S3200000x8 : Shape := ⟨2, ![3200000, 8]⟩
abbrev S1x8 : Shape := ⟨2, ![1, 8]⟩
abbrev S1x1 : Shape := ⟨2, ![1, 1]⟩

abbrev nBuf : Space → Nat
  | .hbm => 46
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S32x8, .f32⟩
  | .hbm, ⟨3, _⟩ => ⟨S8, .f32⟩
  | .hbm, ⟨4, _⟩ => ⟨S8x1, .f32⟩
  | .hbm, ⟨5, _⟩ => ⟨S1, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .i32⟩
  | .hbm, ⟨11, _⟩ => ⟨S3200000, .i32⟩
  | .hbm, ⟨12, _⟩ => ⟨S3200000, .i1⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S3200000x1, .i32⟩
  | .hbm, ⟨18, _⟩ => ⟨S3200000x16, .f32⟩
  | .hbm, ⟨19, _⟩ => ⟨S_, .i32⟩
  | .hbm, ⟨20, _⟩ => ⟨S3200000, .i32⟩
  | .hbm, ⟨21, _⟩ => ⟨S3200000, .i1⟩
  | .hbm, ⟨22, _⟩ => ⟨S_, .i32⟩
  | .hbm, ⟨23, _⟩ => ⟨S3200000, .i32⟩
  | .hbm, ⟨24, _⟩ => ⟨S3200000, .i32⟩
  | .hbm, ⟨25, _⟩ => ⟨S3200000, .i32⟩
  | .hbm, ⟨26, _⟩ => ⟨S3200000x1, .i32⟩
  | .hbm, ⟨27, _⟩ => ⟨S3200000x16, .f32⟩
  | .hbm, ⟨28, _⟩ => ⟨S3200000x32, .f32⟩
  | .hbm, ⟨29, _⟩ => ⟨S3200000x8, .f32⟩
  | .hbm, ⟨30, _⟩ => ⟨S1x8, .f32⟩
  | .hbm, ⟨31, _⟩ => ⟨S3200000x8, .f32⟩
  | .hbm, ⟨32, _⟩ => ⟨S3200000x8, .f32⟩
  | .hbm, ⟨33, _⟩ => ⟨S3200000x8, .f32⟩
  | .hbm, ⟨34, _⟩ => ⟨S3200000x1, .f32⟩
  | .hbm, ⟨35, _⟩ => ⟨S1x1, .f32⟩
  | .hbm, ⟨36, _⟩ => ⟨S3200000x1, .f32⟩
  | .hbm, ⟨37, _⟩ => ⟨S3200000x1, .f32⟩
  | .hbm, ⟨38, _⟩ => ⟨S3200000x1, .f32⟩
  | .hbm, ⟨39, _⟩ => ⟨S3200000x1, .f32⟩
  | .hbm, ⟨40, _⟩ => ⟨S_, .f32⟩
  | .hbm, ⟨41, _⟩ => ⟨S3200000x1, .f32⟩
  | .hbm, ⟨42, _⟩ => ⟨S3200000x1, .f32⟩
  | .hbm, ⟨43, _⟩ => ⟨S_, .f32⟩
  | .hbm, ⟨44, _⟩ => ⟨S3200000x1, .f32⟩
  | .hbm, ⟨45, _⟩ => ⟨S3200000x1, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x16_S3200000x16_S3200000x32_d1 : Shape.Concatenates [S3200000x16, S3200000x16] S3200000x32 1
  bcast_S8_S1x8_1 : S8.BroadcastsInDim S1x8 (![1] : Fin 1 → Fin S1x8.rank)
  bcast_S1x8_S3200000x8_0_1 : S1x8.BroadcastsInDim S3200000x8 (![0, 1] : Fin 2 → Fin S3200000x8.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  bcast_S_S3200000x1 : S_.BroadcastsInDim S3200000x1 (![] : Fin 0 → Fin S3200000x1.rank)
  gather_S100000x16_S3200000x1_S3200000x16_1_0_n_n_0_1_116_wf : GatherDims.WF S100000x16 S3200000x1 S3200000x16 [1] [0] [] [0] [] 1 ![1, 16]
  dot_S3200000x32_S32x8_S3200000x8_1_0_0_1_n_n_wf : DotDims.WF S3200000x32 S32x8 S3200000x8 [1] [0] [0] [1] [] []
  dot_S3200000x8_S8x1_S3200000x1_1_0_0_1_n_n_wf : DotDims.WF S3200000x8 S8x1 S3200000x1 [1] [0] [0] [1] [] []

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def dot_S3200000x32_S32x8_S3200000x8_1_0_0_1_n_n : DotDims S3200000x32 S32x8 S3200000x8 where
  lhsContracting := [1]
  rhsContracting := [0]
  lhsNonContracting := [0]
  rhsNonContracting := [1]
  lhsBatch := []
  rhsBatch := []
  wf := dot_S3200000x32_S32x8_S3200000x8_1_0_0_1_n_n_wf
def dot_S3200000x8_S8x1_S3200000x1_1_0_0_1_n_n : DotDims S3200000x8 S8x1 S3200000x1 where
  lhsContracting := [1]
  rhsContracting := [0]
  lhsNonContracting := [0]
  rhsNonContracting := [1]
  lhsBatch := []
  rhsBatch := []
  wf := dot_S3200000x8_S8x1_S3200000x1_1_0_0_1_n_n_wf

class Facts : Prop extends Facts₀ where

variable [Facts]
-- ==== Proof.LibRowGatherVec.lean ====
/-
  A `stablehlo.gather` that takes whole ROWS of a rank-2 table at a VECTOR of row numbers — what `table[idx]` of a
  table `[N, D]` at an integer vector `idx : [R]` lowers to (the offset axis the last one, the row axis collapsed, the
  start indices the column `[R, 1]`) — read at a result index `(r, j)`: the table's entry in column `j` of the row
  named by the start index `idx[r, 0]`, that index read as a signed integer and clamped into `[0, N − 1]` (a negative
  start index reads row 0, one past the end reads the last row).
-/
import Idealize.ShloMosaic.PureOps.Ideal
import Idealize.ShloMosaic.Lib.ValueIdx

noncomputable section

namespace Cert.Lib.RowGatherVec

open Idealize.ShloMosaic Idealize.ShloMosaic.ValueIdx

variable {α : Type}

/-- The dimension numbers of a row gather for a table `[N, D]`, start indices `[R, 1]` and result `[R, D]`. -/
abbrev rowDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The row a start index names in a table of `N` rows: the word read signed, clamped into `[0, N − 1]`. -/
def rowOf (N : Nat) (hN : 0 < N) {w : Nat} (t : BitVec w) : Fin N := ⟨min t.toInt.toNat (N - 1), by omega⟩

/-- On the table's row axis the operand coordinate is the clamped start index (nothing is added: the axis is
    collapsed, and no axis is a batching one). -/
theorem row_axis {N D R w : Nat} (hN : 0 < N)
    (wf : GatherDims.WF ⟨2, ![N, D]⟩ ⟨2, ![R, 1]⟩ ⟨2, ![R, D]⟩ [1] [0] [] [0] [] 1 ![1, D])
    (idx : IVec ⟨2, ![R, 1]⟩ w) (r : Fin R) (j : Fin D) :
    (rowDims N D R wf).start (ix2 r j) idx (0 : Fin 2) + (rowDims N D R wf).batchCoord (ix2 r j) (0 : Fin 2)
      + (rowDims N D R wf).offCoord (ix2 r j) (0 : Fin 2)
      = (rowOf N hN (idx (ix2 r (⟨0, Nat.one_pos⟩ : Fin 1)))).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N D R wf).startIndexMap from List.mem_singleton.mpr rfl)]
  have hsi : (rowDims N D R wf).siIdx (ix2 r j) ⟨List.idxOf (0 : Fin 2) (rowDims N D R wf).startIndexMap,
      List.idxOf_lt_length_iff.2 (List.mem_singleton.mpr rfl)⟩ = ix2 r (⟨0, Nat.one_pos⟩ : Fin 1) := by
    funext b; refine Fin.ext ?_
    match b with
    | ⟨0, _⟩ => rfl
    | ⟨1, _⟩ => rfl
  rw [hsi]
  rfl

/-- On the table's column axis the operand coordinate is the result's offset coordinate (no start index names it). -/
theorem col_axis {N D R w : Nat}
    (wf : GatherDims.WF ⟨2, ![N, D]⟩ ⟨2, ![R, 1]⟩ ⟨2, ![R, D]⟩ [1] [0] [] [0] [] 1 ![1, D])
    (idx : IVec ⟨2, ![R, 1]⟩ w) (r : Fin R) (j : Fin D) :
    (rowDims N D R wf).start (ix2 r j) idx (1 : Fin 2) + (rowDims N D R wf).batchCoord (ix2 r j) (1 : Fin 2)
      + (rowDims N D R wf).offCoord (ix2 r j) (1 : Fin 2) = j.val := by
  rw [GatherDims.batchCoord_eq_zero _ _ _ List.not_mem_nil]
  have hs : (rowDims N D R wf).start (ix2 r j) idx (1 : Fin 2) = 0 := by
    unfold GatherDims.start
    rw [dif_neg (show (1 : Fin 2) ∉ (rowDims N D R wf).startIndexMap from
      fun h => absurd (List.mem_singleton.mp h) (fun e => Nat.one_ne_zero (congrArg Fin.val e)))]
  have ho : (rowDims N D R wf).offCoord (ix2 r j) (1 : Fin 2) = j.val := by
    unfold GatherDims.offCoord
    rw [dif_pos (show (1 : Fin 2) ∈ (rowDims N D R wf).sKept from (GatherDims.mem_sKept _ _).mpr
      ⟨fun h => absurd (List.mem_singleton.mp h) (fun e => Nat.one_ne_zero (congrArg Fin.val e)), List.not_mem_nil⟩)]
    rfl
  rw [hs, ho]
  simp

/-- THE ROW GATHER READ AT `(r, j)`: column `j` of the table's row `rowOf N (idx[r, 0])`. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (j : Fin D) :
    Host.gather (rowDims N D R wf) x idx (ix2 r j)
      = x (ix2 (rowOf N hN (idx (ix2 r (⟨0, Nat.one_pos⟩ : Fin 1)))) j) := by
  unfold Host.gather
  congr 1
  funext a
  refine Fin.ext ?_
  match a with
  | ⟨0, _⟩ => exact row_axis hN wf idx r j
  | ⟨1, _⟩ => exact col_axis wf idx r j

end Cert.Lib.RowGatherVec

end
-- ==== Proof.Spec.lean ====
/-
  The edge network's value, stated once for both programs.

  The inputs: a node table `x : [100000, 16]`, the edges' endpoints `ei : [2, 3200000]` (row 0 the "row" endpoints, row 1
  the "col" endpoints), and a two-layer perceptron `W1 : [32, 8]`, `b1 : [8]`, `W2 : [8, 1]`, `b2 : [1]`.

  Edge `e` gets a feature row of 32 numbers: the 16 features of its "col" node followed by the 16 of its "row" node,
  a node number being read the way jnp reads an index (a negative one counts from the end, the result is clamped into
  the table). Its score is `σ (Σₖ tanh (Σⱼ row j · W1[j, k] + b1[k]) · W2[k, 0] + b2[0])` with `σ z = 1 / (1 + e^(−z))`,
  every operation the extended reals' exact one. The score depends on the edge only through its feature row
  (`mlpRow`), which is what lets one block of a tiled evaluation be compared with the whole array's.
-/
import Idealize.ShloMosaic.PureOps.Ideal
import Idealize.ShloMosaic.Lib.ValueIdx
import proofs.«414228_j26182120636655_3_alg».proof.Proof.LibRowGatherVec

noncomputable section

open scoped BigOperators

namespace Cert.EdgeNet

open Idealize.ShloMosaic Idealize.ShloMosaic.ValueIdx

/-- jnp's reading of a node number: a negative one counts from the end of the 100000 nodes. -/
def wrapNode (v : BitVec 32) : BitVec 32 :=
  Scalar.select (IntOp.cmpi .slt v 0#32) (IntOp.addi v 100000#32) v

/-- The table row an endpoint names: the wrapped number read signed and clamped into `[0, 99999]`. -/
def nodeOf (v : BitVec 32) : Fin 100000 := Cert.Lib.RowGatherVec.rowOf 100000 (by decide) (wrapNode v)

/-- Edge `e`'s feature row: entries 0–15 are its "col" node's features (endpoint row 1), entries 16–31 its "row"
    node's (endpoint row 0). -/
def featRow (x : (⟨2, ![100000, 16]⟩ : Shape).Idx → EReal) (ei : (⟨2, ![2, 3200000]⟩ : Shape).Idx → BitVec 32)
    (e : Fin 3200000) (j : Fin 32) : EReal :=
  if h : j.val < 16 then x (ix2 (nodeOf (ei (ix2 (1 : Fin 2) e))) (⟨j.val, h⟩ : Fin 16))
  else x (ix2 (nodeOf (ei (ix2 (0 : Fin 2) e))) (⟨j.val - 16, by have := j.isLt; omega⟩ : Fin 16))

/-- The perceptron on one feature row: `σ (Σₖ tanh (Σⱼ row j · W1[j, k] + b1[k]) · W2[k, 0] + b2[0])`. -/
def mlpRow (row : Fin 32 → EReal) (W1 : (⟨2, ![32, 8]⟩ : Shape).Idx → EReal) (b1 : (⟨1, ![8]⟩ : Shape).Idx → EReal)
    (W2 : (⟨2, ![8, 1]⟩ : Shape).Idx → EReal) (b2 : (⟨1, ![1]⟩ : Shape).Idx → EReal) : EReal :=
  Ideal.logistic ((∑ k : Fin 8, Ideal.tanh ((∑ j : Fin 32, row j * W1 (ix2 j k)) + b1 (ix1 k)) * W2 (ix2 k (0 : Fin 1)))
    + b2 (ix1 (0 : Fin 1)))

/-- Every edge's score: the result array `[3200000, 1]` both programs are claimed to end with. -/
def scores (x : (⟨2, ![100000, 16]⟩ : Shape).Idx → EReal) (ei : (⟨2, ![2, 3200000]⟩ : Shape).Idx → BitVec 32)
    (W1 : (⟨2, ![32, 8]⟩ : Shape).Idx → EReal) (b1 : (⟨1, ![8]⟩ : Shape).Idx → EReal)
    (W2 : (⟨2, ![8, 1]⟩ : Shape).Idx → EReal) (b2 : (⟨1, ![1]⟩ : Shape).Idx → EReal) :
    (⟨2, ![3200000, 1]⟩ : Shape).Idx → EReal :=
  fun i => mlpRow (featRow x ei (i 0)) W1 b1 W2 b2

end Cert.EdgeNet

end
-- ==== Proof.RefValue.lean ====
/-
  The reference's result is the edge scores.

  The reference program takes the two endpoint rows off the edge table, reads each node number the way jnp reads an
  index, gathers the "col" nodes' and the "row" nodes' feature rows from the node table, joins them side by side, and
  applies the perceptron with two whole matrix products. Read at one edge, every stage depends on that edge only:
  the gathered-and-joined matrix holds the edge's feature row, each matrix product is a finite sum over its
  contracted axis, and the closing `1 / (1 + e^(−z))` is the logistic function's definition on the extended reals.
-/
import proofs.«414228_j26182120636655_3_alg».proof.Proof.Gen.ReferenceIdeal.Read
import proofs.«414228_j26182120636655_3_alg».proof.Proof.Spec
import Idealize.ShloMosaic.Lib.IdealHost

noncomputable section

open scoped BigOperators

namespace Cert.EdgeNet.Ref

open Idealize.ShloMosaic Idealize.ShloMosaic.ValueIdx Cert.ReferenceIdeal Cert.ReferenceIdeal.Gen Cert.ReferenceIdeal.Read Cert.EdgeNet
open Cert.Lib.RowGatherVec

/-- The "col" start-index column at edge `e` is the wrapped endpoint `ei[1, e]`. -/
theorem colStart (x1 : (⟨S2x3200000, .i32⟩ : BufTy).Contents (Elt Ideal)) (e : Fin 3200000) :
    val_main_v9 (F := Ideal) x1 (ix2 e (⟨0, Nat.one_pos⟩ : Fin 1)) = wrapNode (x1 (ix2 (1 : Fin 2) e)) := by
  have hi : idx_main_v2 (idx_main_v3 (idx_main_v9 (ix2 e (⟨0, Nat.one_pos⟩ : Fin 1)))) = ix2 (1 : Fin 2) e :=
    funext fun a => Fin.ext (by
      match a with
      | ⟨0, _⟩ => rfl
      | ⟨1, _⟩ => exact Nat.mod_eq_of_lt e.isLt)
  rw [val_main_v9_apply, val_main_v8_apply, val_main_v5_apply, val_main_v7_apply, val_main_v3_apply, val_main_v2_apply,
    val_main_v4_apply, val_main_c_apply, val_main_v6_apply, val_main_c_0_apply, hi]
  rfl

/-- The "row" start-index column at edge `e` is the wrapped endpoint `ei[0, e]`. -/
theorem rowStart (x1 : (⟨S2x3200000, .i32⟩ : BufTy).Contents (Elt Ideal)) (e : Fin 3200000) :
    val_main_v16 (F := Ideal) x1 (ix2 e (⟨0, Nat.one_pos⟩ : Fin 1)) = wrapNode (x1 (ix2 (0 : Fin 2) e)) := by
  have hi : idx_main_v0 (idx_main_v1 (idx_main_v16 (ix2 e (⟨0, Nat.one_pos⟩ : Fin 1)))) = ix2 (0 : Fin 2) e :=
    funext fun a => Fin.ext (by
      match a with
      | ⟨0, _⟩ => rfl
      | ⟨1, _⟩ => exact Nat.mod_eq_of_lt e.isLt)
  rw [val_main_v16_apply, val_main_v15_apply, val_main_v12_apply, val_main_v14_apply, val_main_v1_apply, val_main_v0_apply,
    val_main_v11_apply, val_main_c_1_apply, val_main_v13_apply, val_main_c_2_apply, hi]
  rfl

/-- The joined matrix at `(e, j)` is entry `j` of edge `e`'s feature row. -/
theorem joined_apply (x0 : (⟨S100000x16, .f32⟩ : BufTy).Contents (Elt Ideal)) (x1 : (⟨S2x3200000, .i32⟩ : BufTy).Contents (Elt Ideal))
    (e : Fin 3200000) (j : Fin 32) :
    val_main_v18 (F := Ideal) x0 x1 (ix2 e j) = featRow x0 x1 e j := by
  unfold val_main_v18 featRow
  by_cases h : j.val < 16
  · rw [dif_pos h]
    refine (concatenate_pair_apply_left (t := S3200000x32) (s₁ := S3200000x16) (s₂ := S3200000x16) (1 : Fin 2) _ _
      concatenates_S3200000x16_S3200000x16_S3200000x32_d1 (ix2 e j) rfl
      (ix2 e (⟨j.val, h⟩ : Fin 16)) (fun b => by
        match b with
        | ⟨0, _⟩ => rfl
        | ⟨1, _⟩ => rfl)).trans ?_
    unfold val_main_v10
    refine (gather_rows_apply (N := 100000) (D := 16) (R := 3200000) (by decide)
      gather_S100000x16_S3200000x1_S3200000x16_1_0_n_n_0_1_116_wf x0 (val_main_v9 (F := Ideal) x1) e (⟨j.val, h⟩ : Fin 16)).trans ?_
    rw [colStart]
    rfl
  · rw [dif_neg h]
    have hj := j.isLt
    refine (concatenate_pair_apply_right (t := S3200000x32) (s₁ := S3200000x16) (s₂ := S3200000x16) (1 : Fin 2) _ _
      concatenates_S3200000x16_S3200000x16_S3200000x32_d1 (ix2 e j) rfl rfl
      (ix2 e (⟨j.val - 16, by omega⟩ : Fin 16)) (fun b hb => by
        match b with
        | ⟨0, _⟩ => rfl
        | ⟨1, _⟩ => exact absurd rfl hb) (by show (j.val - 16) + 16 = j.val; omega)).trans ?_
    unfold val_main_v17
    refine (gather_rows_apply (N := 100000) (D := 16) (R := 3200000) (by decide)
      gather_S100000x16_S3200000x1_S3200000x16_1_0_n_n_0_1_116_wf x0 (val_main_v16 (F := Ideal) x1) e (⟨j.val - 16, by omega⟩ : Fin 16)).trans ?_
    rw [rowStart]
    rfl

/-- THE REFERENCE'S RESULT, index by index, is the edge's score. -/
theorem result_eq (x0 : (⟨S100000x16, .f32⟩ : BufTy).Contents (Elt Ideal)) (x1 : (⟨S2x3200000, .i32⟩ : BufTy).Contents (Elt Ideal))
    (x2 : (⟨S32x8, .f32⟩ : BufTy).Contents (Elt Ideal)) (x3 : (⟨S8, .f32⟩ : BufTy).Contents (Elt Ideal))
    (x4 : (⟨S8x1, .f32⟩ : BufTy).Contents (Elt Ideal)) (x5 : (⟨S1, .f32⟩ : BufTy).Contents (Elt Ideal)) :
    val_main_v33 (F := Ideal) x0 x1 x2 x3 x4 x5 = scores x0 x1 x2 x3 x4 x5 := by
  funext i
  obtain ⟨e, z, rfl⟩ : ∃ (e : Fin 3200000) (z : Fin 1), i = ix2 e z := ⟨i 0, i 1, eq_ix2 i⟩
  have hz : z = 0 := Subsingleton.elim _ _
  subst hz
  have e1 : ∀ (k : Fin 8) (j : Fin 32), lidx_main_v19 (lidx_main_v24 (ix2 e (0 : Fin 1)) k) j = ix2 e j := fun k j =>
    funext fun a => by match a with | ⟨0, _⟩ => rfl | ⟨1, _⟩ => rfl
  have e2 : ∀ (k : Fin 8) (j : Fin 32), ridx_main_v19 (lidx_main_v24 (ix2 e (0 : Fin 1)) k) j = ix2 j k := fun k j =>
    funext fun a => by match a with | ⟨0, _⟩ => rfl | ⟨1, _⟩ => rfl
  have e3 : ∀ k : Fin 8, idx_main_v20 (idx_main_v21 (lidx_main_v24 (ix2 e (0 : Fin 1)) k)) = ix1 k := fun k =>
    funext fun a => by match a with | ⟨0, _⟩ => rfl
  have e4 : ∀ k : Fin 8, ridx_main_v24 (ix2 e (0 : Fin 1)) k = ix2 k (0 : Fin 1) := fun k =>
    funext fun a => by match a with | ⟨0, _⟩ => rfl | ⟨1, _⟩ => rfl
  have e5 : idx_main_v25 (idx_main_v26 (ix2 e (0 : Fin 1))) = ix1 (0 : Fin 1) :=
    funext fun a => by match a with | ⟨0, _⟩ => rfl
  rw [val_main_v33_apply, val_main_v32_apply, val_main_cst_3_apply, val_main_v31_apply, val_main_v30_apply, val_main_cst_apply,
    val_main_v29_apply, val_main_v28_apply, val_main_v27_apply, val_main_v24_apply, val_main_v26_apply, val_main_v25_apply, e5]
  simp only [val_main_v23_apply, val_main_v22_apply, val_main_v19_apply, val_main_v21_apply, val_main_v20_apply, e1, e2, e3, e4,
    joined_apply]
  simp only [scores, mlpRow, Ideal.logistic, Ideal.hostDivf_def, Ideal.addf_def, Ideal.hostUnary_exp_def, Ideal.hostNegf_def,
    Ideal.negf_def, Ideal.hostUnary_tanh_def, Ideal.ofBits_def, Ideal.ofBits_one_f32]

end Cert.EdgeNet.Ref

end
-- ==== Proof.KernelRow.lean ====
/-
  One block of the kernel's body at one of its 8192 rows.

  The body takes a block of 8192 feature rows, the two weight matrices and the two biases, and stores
  `σ (tanh (B · W1 + b1) · W2 + b2)` for the block. Read at row `p`, each matrix product into a zero accumulator is the
  finite sum over its one contracted axis, each bias is broadcast along the rows, a change of float format is the
  identity on extended reals, and what is left is the perceptron applied to row `p` of the block.
-/
import proofs.«414228_j26182120636655_3_alg».proof.Proof.Gen.KernelIdeal.Skeleton
import proofs.«414228_j26182120636655_3_alg».proof.Proof.Spec
import Idealize.ShloMosaic.Lib.Pipeline.Value
import Idealize.ShloMosaic.PureOps.Ideal.Laws

noncomputable section

open scoped BigOperators

namespace Cert.EdgeNet.Body

open Idealize.ShloMosaic Idealize.ShloMosaic.ValueIdx Cert.KernelIdeal Cert.KernelIdeal.Gen Cert.EdgeNet

/-! ## The operand indices of the two matrix products, axis by axis -/

theorem lhsA_0 (i : S8192x8.Idx) (q : dot_S8192x32_S32x8_S8192x8_1_0_0_1_n_n.contr.Idx) :
    (dot_S8192x32_S32x8_S8192x8_1_0_0_1_n_n.lhsIdx i q 0).val = (i 0).val := by
  unfold DotDims.lhsIdx
  rw [dif_neg (show ¬(0 : Fin S8192x32.rank) ∈ dot_S8192x32_S32x8_S8192x8_1_0_0_1_n_n.lhsBatch by decide), dif_pos (show (0 : Fin S8192x32.rank) ∈ dot_S8192x32_S32x8_S8192x8_1_0_0_1_n_n.lhsNonContracting by decide)]
  rfl
theorem lhsA_1 (i : S8192x8.Idx) (q : dot_S8192x32_S32x8_S8192x8_1_0_0_1_n_n.contr.Idx) :
    (dot_S8192x32_S32x8_S8192x8_1_0_0_1_n_n.lhsIdx i q 1).val = (q ⟨0, by decide⟩).val :=
  dot_S8192x32_S32x8_S8192x8_1_0_0_1_n_n.lhsIdx_val_of_single rfl i q
theorem rhsA_0 (i : S8192x8.Idx) (q : dot_S8192x32_S32x8_S8192x8_1_0_0_1_n_n.contr.Idx) :
    (dot_S8192x32_S32x8_S8192x8_1_0_0_1_n_n.rhsIdx i q 0).val = (q ⟨0, by decide⟩).val :=
  dot_S8192x32_S32x8_S8192x8_1_0_0_1_n_n.rhsIdx_val_of_single rfl i q
theorem rhsA_1 (i : S8192x8.Idx) (q : dot_S8192x32_S32x8_S8192x8_1_0_0_1_n_n.contr.Idx) :
    (dot_S8192x32_S32x8_S8192x8_1_0_0_1_n_n.rhsIdx i q 1).val = (i 1).val := by
  unfold DotDims.rhsIdx
  rw [dif_neg (show ¬(1 : Fin S32x8.rank) ∈ dot_S8192x32_S32x8_S8192x8_1_0_0_1_n_n.rhsBatch by decide), dif_pos (show (1 : Fin S32x8.rank) ∈ dot_S8192x32_S32x8_S8192x8_1_0_0_1_n_n.rhsNonContracting by decide)]
  rfl

theorem lhsB_0 (i : S8192x1.Idx) (q : dot_S8192x8_S8x1_S8192x1_1_0_0_1_n_n.contr.Idx) :
    (dot_S8192x8_S8x1_S8192x1_1_0_0_1_n_n.lhsIdx i q 0).val = (i 0).val := by
  unfold DotDims.lhsIdx
  rw [dif_neg (show ¬(0 : Fin S8192x8.rank) ∈ dot_S8192x8_S8x1_S8192x1_1_0_0_1_n_n.lhsBatch by decide), dif_pos (show (0 : Fin S8192x8.rank) ∈ dot_S8192x8_S8x1_S8192x1_1_0_0_1_n_n.lhsNonContracting by decide)]
  rfl
theorem lhsB_1 (i : S8192x1.Idx) (q : dot_S8192x8_S8x1_S8192x1_1_0_0_1_n_n.contr.Idx) :
    (dot_S8192x8_S8x1_S8192x1_1_0_0_1_n_n.lhsIdx i q 1).val = (q ⟨0, by decide⟩).val :=
  dot_S8192x8_S8x1_S8192x1_1_0_0_1_n_n.lhsIdx_val_of_single rfl i q
theorem rhsB_0 (i : S8192x1.Idx) (q : dot_S8192x8_S8x1_S8192x1_1_0_0_1_n_n.contr.Idx) :
    (dot_S8192x8_S8x1_S8192x1_1_0_0_1_n_n.rhsIdx i q 0).val = (q ⟨0, by decide⟩).val :=
  dot_S8192x8_S8x1_S8192x1_1_0_0_1_n_n.rhsIdx_val_of_single rfl i q
theorem rhsB_1 (i : S8192x1.Idx) (q : dot_S8192x8_S8x1_S8192x1_1_0_0_1_n_n.contr.Idx) :
    (dot_S8192x8_S8x1_S8192x1_1_0_0_1_n_n.rhsIdx i q 1).val = (i 1).val := by
  unfold DotDims.rhsIdx
  rw [dif_neg (show ¬(1 : Fin S8x1.rank) ∈ dot_S8192x8_S8x1_S8192x1_1_0_0_1_n_n.rhsBatch by decide), dif_pos (show (1 : Fin S8x1.rank) ∈ dot_S8192x8_S8x1_S8192x1_1_0_0_1_n_n.rhsNonContracting by decide)]
  rfl

/-! ## The products and the biases at an index -/

/-- The first product `[8192, 32] × [32, 8]` into zero, at `(p, k)`: row `p` of the left against column `k` of the right. -/
theorem firstProduct_apply (l : FVec Ideal S8192x32 .bf16) (r : FVec Ideal S32x8 .bf16) (p : Fin 8192) (k : Fin 8) :
    matmul dot_S8192x32_S32x8_S8192x8_1_0_0_1_n_n none l r (constant S8192x8 .f32 0x00000000#32) (ix2 p k)
      = ∑ j : Fin 32, l (ix2 p j) * r (ix2 j k) := by
  show FloatOps.matmul dot_S8192x32_S32x8_S8192x8_1_0_0_1_n_n none l r (constant S8192x8 .f32 0x00000000#32) (ix2 p k) = _
  rw [Ideal.matmul_constant_zero_apply, ← Equiv.sum_comp (contrEquiv1 dot_S8192x32_S32x8_S8192x8_1_0_0_1_n_n 32 rfl rfl).symm]
  refine Finset.sum_congr rfl fun j _ => ?_
  have hj := contrEquiv1_symm_val dot_S8192x32_S32x8_S8192x8_1_0_0_1_n_n 32 rfl rfl j
  have el : dot_S8192x32_S32x8_S8192x8_1_0_0_1_n_n.lhsIdx (ix2 p k) ((contrEquiv1 dot_S8192x32_S32x8_S8192x8_1_0_0_1_n_n 32 rfl rfl).symm j) = ix2 p j := funext fun a => Fin.ext (by
    match a with
    | ⟨0, _⟩ => exact lhsA_0 _ _
    | ⟨1, _⟩ => exact (lhsA_1 _ _).trans hj)
  have er : dot_S8192x32_S32x8_S8192x8_1_0_0_1_n_n.rhsIdx (ix2 p k) ((contrEquiv1 dot_S8192x32_S32x8_S8192x8_1_0_0_1_n_n 32 rfl rfl).symm j) = ix2 j k := funext fun a => Fin.ext (by
    match a with
    | ⟨0, _⟩ => exact (rhsA_0 _ _).trans hj
    | ⟨1, _⟩ => exact rhsA_1 _ _)
  rw [el, er]

/-- The second product `[8192, 8] × [8, 1]` into zero, at `(p, 0)`. -/
theorem secondProduct_apply (l : FVec Ideal S8192x8 .bf16) (r : FVec Ideal S8x1 .bf16) (p : Fin 8192) :
    matmul dot_S8192x8_S8x1_S8192x1_1_0_0_1_n_n none l r (constant S8192x1 .f32 0x00000000#32) (ix2 p (0 : Fin 1))
      = ∑ k : Fin 8, l (ix2 p k) * r (ix2 k (0 : Fin 1)) := by
  show FloatOps.matmul dot_S8192x8_S8x1_S8192x1_1_0_0_1_n_n none l r (constant S8192x1 .f32 0x00000000#32) (ix2 p (0 : Fin 1)) = _
  rw [Ideal.matmul_constant_zero_apply, ← Equiv.sum_comp (contrEquiv1 dot_S8192x8_S8x1_S8192x1_1_0_0_1_n_n 8 rfl rfl).symm]
  refine Finset.sum_congr rfl fun k _ => ?_
  have hk := contrEquiv1_symm_val dot_S8192x8_S8x1_S8192x1_1_0_0_1_n_n 8 rfl rfl k
  have el : dot_S8192x8_S8x1_S8192x1_1_0_0_1_n_n.lhsIdx (ix2 p (0 : Fin 1)) ((contrEquiv1 dot_S8192x8_S8x1_S8192x1_1_0_0_1_n_n 8 rfl rfl).symm k) = ix2 p k := funext fun a => Fin.ext (by
    match a with
    | ⟨0, _⟩ => exact lhsB_0 _ _
    | ⟨1, _⟩ => exact (lhsB_1 _ _).trans hk)
  have er : dot_S8192x8_S8x1_S8192x1_1_0_0_1_n_n.rhsIdx (ix2 p (0 : Fin 1)) ((contrEquiv1 dot_S8192x8_S8x1_S8192x1_1_0_0_1_n_n 8 rfl rfl).symm k) = ix2 k (0 : Fin 1) := funext fun a => Fin.ext (by
    match a with
    | ⟨0, _⟩ => exact (rhsB_0 _ _).trans hk
    | ⟨1, _⟩ => exact rhsB_1 _ _)
  rw [el, er]

/-- The hidden layer's bias, laid out as a row and repeated down the block, at `(p, k)` is `b1[k]`. -/
theorem hiddenBias_apply (b : Vec Ideal S8 .f32) (p : Fin 8192) (k : Fin 8) :
    broadcastTo S8192x8 (shapeCast S1x8 b shapeCasts_S8_S1x8) broadcasts_S1x8_S8192x8 (ix2 p k) = b (ix1 k) := by
  refine (broadcastTo_apply _ broadcasts_S1x8_S8192x8 (ix2 p k) (ix2 (0 : Fin 1) k) (fun a => by
    match a with
    | ⟨0, _⟩ => show 0 = if (1 : Nat) = 1 then 0 else _; rw [if_pos rfl]
    | ⟨1, _⟩ => show k.val = if (8 : Nat) = 1 then 0 else k.val; rw [if_neg (by decide)])).trans ?_
  exact shapeCast_apply b shapeCasts_S8_S1x8 (ix2 (0 : Fin 1) k) (ix1 k)
    (by rewrite [Shape.rowMajor_val_two, Shape.rowMajor_val_one]; show k.val = 0 * 8 + k.val; omega)

/-- The output layer's bias, repeated down the block, at `(p, 0)` is `b2[0]`. -/
theorem outBias_apply (b : Vec Ideal S1 .f32) (p : Fin 8192) :
    broadcastTo S8192x1 (shapeCast S1x1 b shapeCasts_S1_S1x1) broadcasts_S1x1_S8192x1 (ix2 p (0 : Fin 1)) = b (ix1 (0 : Fin 1)) := by
  refine (broadcastTo_apply _ broadcasts_S1x1_S8192x1 (ix2 p (0 : Fin 1)) (ix2 (0 : Fin 1) (0 : Fin 1)) (fun a => by
    match a with
    | ⟨0, _⟩ => show 0 = if (1 : Nat) = 1 then 0 else _; rw [if_pos rfl]
    | ⟨1, _⟩ => show 0 = if (1 : Nat) = 1 then 0 else _; rw [if_pos rfl])).trans ?_
  exact shapeCast_apply b shapeCasts_S1_S1x1 (ix2 (0 : Fin 1) (0 : Fin 1)) (ix1 (0 : Fin 1))
    (by rewrite [Shape.rowMajor_val_two, Shape.rowMajor_val_one]; rfl)

/-! ## The body's stored value at a row -/

/-- THE BODY AT ROW `p`: the perceptron applied to row `p` of the feature block. -/
theorem pay_apply (v0 : Vec Ideal S8192x32 .bf16) (v2 : Vec Ideal S32x8 .bf16) (v5 : Vec Ideal S8 .f32)
    (v11 : Vec Ideal S8x1 .bf16) (v14 : Vec Ideal S1 .f32) (p : Fin 8192) :
    k0_pay1 (F := Ideal) v0 v2 v5 v11 v14 (ix2 p (0 : Fin 1)) = mlpRow (fun j => v0 (ix2 p j)) v2 v5 v11 v14 := by
  simp only [k0_pay1, shapeCast_self]
  unfold mlpRow
  show Ideal.logistic (_ + _) = Ideal.logistic (_ + _)
  rw [secondProduct_apply, outBias_apply]
  refine congrArg Ideal.logistic (congrArg (· + v14 (ix1 (0 : Fin 1))) (Finset.sum_congr rfl fun k _ => ?_))
  show Ideal.tanh (_ + _) * _ = Ideal.tanh (_ + _) * _
  rw [firstProduct_apply, hiddenBias_apply]

end Cert.EdgeNet.Body

end
-- ==== Proof.KernelHost.lean ====
/-
  What the kernel program's host lines hand to its one region.

  Before the region the program takes the two endpoint rows off the edge table, pads each with zeros from 3200000 up
  to 3203072 entries (391 blocks of 8192), reads every node number the way jnp reads an index, gathers the "col"
  nodes' and the "row" nodes' feature rows, joins them side by side and narrows the float format, which is the
  identity on extended reals; the two weight matrices are narrowed likewise. So the region finds a feature matrix
  `[3203072, 32]` whose row `e`, for a real edge `e < 3200000`, is that edge's feature row (the padded tail rows hold
  node 0's features twice; they never reach the result), and it finds the weights and biases as launched.
-/
import proofs.«414228_j26182120636655_3_alg».proof.Proof.Gen.KernelIdeal.Frame
import proofs.«414228_j26182120636655_3_alg».proof.Proof.Spec
import Idealize.ShloMosaic.Lib.StableHlo.Run
import Idealize.ShloMosaic.Lib.Pipeline.Value
import Idealize.ShloMosaic.Lib.KernelVsHost

noncomputable section

namespace Cert.EdgeNet.Host

open Idealize.ShloMosaic Idealize.ShloMosaic.TcCoe Idealize.SL.Sem Idealize.ShloMosaic.StableHlo Idealize.ShloMosaic.ValueIdx
open Cert.KernelIdeal Cert.KernelIdeal.Gen Cert.EdgeNet Cert.Lib.RowGatherVec

/-! ## The host lines' values, as functions of the launched arrays -/

/-- The "row" endpoints (edge-table row 0), padded with zeros to 3203072 entries. -/
def paddedRow (x1 : IVec S2x3200000 32) : IVec S3203072 32 :=
  pad S3203072 ![0] ![3072] ![0]
    (shapeCast S3200000 (extractStridedSlice S1x3200000 ![0, 0] x1 slices_S2x3200000_S1x3200000_0_0) shapeCasts_S1x3200000_S3200000)
    (id (constantI S_ 32 0#32)) pads_S3200000_S3203072_030720 h_S_

/-- The "col" endpoints (edge-table row 1), padded with zeros to 3203072 entries. -/
def paddedCol (x1 : IVec S2x3200000 32) : IVec S3203072 32 :=
  pad S3203072 ![0] ![3072] ![0]
    (shapeCast S3200000 (extractStridedSlice S1x3200000 ![1, 0] x1 slices_S2x3200000_S1x3200000_1_0) shapeCasts_S1x3200000_S3200000)
    (id (constantI S_ 32 0#32)) pads_S3200000_S3203072_030720 h_S_

/-- A vector of node numbers read jnp's way (negative ones count from the end), laid out as the gather's column of
    start indices. -/
def startColumn (P : IVec S3203072 32) : IVec S3203072x1 32 :=
  broadcastInDim S3203072x1 ![0] bcast_S3203072_S3203072x1_0
    (select (cmpi .slt P (broadcastInDim S3203072 ![] bcast_S_S3203072 (constantI S_ 32 0#32)))
      (addi P (broadcastInDim S3203072 ![] bcast_S_S3203072 (constantI S_ 32 100000#32))) P)

/-- The feature matrix the region finds: the "col" nodes' rows beside the "row" nodes' rows. -/
def features (x0 : FVec Ideal S100000x16 .f32) (x1 : IVec S2x3200000 32) : FVec Ideal S3203072x32 .bf16 :=
  truncf .bf16
    (concatenate S3203072x32 1
      [⟨S3203072x16, Host.gather gather_S100000x16_S3203072x1_S3203072x16_1_0_n_n_0_1_116 x0 (startColumn (paddedCol x1))⟩,
       ⟨S3203072x16, Host.gather gather_S100000x16_S3203072x1_S3203072x16_1_0_n_n_0_1_116 x0 (startColumn (paddedRow x1))⟩]
      concatenates_S3203072x16_S3203072x16_S3203072x32_d1)
    bitsLt_bf16_f32

/-- A weight matrix with its float format narrowed: the same extended reals. -/
def narrowW1 (x2 : FVec Ideal S32x8 .f32) : FVec Ideal S32x8 .bf16 := truncf .bf16 x2 bitsLt_bf16_f32
def narrowW2 (x4 : FVec Ideal S8x1 .f32) : FVec Ideal S8x1 .bf16 := truncf .bf16 x4 bitsLt_bf16_f32

theorem narrowW1_eq (x2 : FVec Ideal S32x8 .f32) : narrowW1 x2 = x2 := rfl
theorem narrowW2_eq (x4 : FVec Ideal S8x1 .f32) : narrowW2 x4 = x4 := rfl

variable (m : (ℓ : Loc nD τ sig) → Buf (Elt Ideal) ℓ)

set_option maxHeartbeats 4000000 in
set_option maxRecDepth 8192 in
/-- Window 0's array as the region finds it: the feature matrix of the launched node table and edge table. -/
theorem V_features (c : Dev nD) :
    V m c main_v21
      = features (m ((c : Thread nD τ).loc main_arg0)) (m ((c : Thread nD τ).loc main_arg1)) := by
  dsimp only [V, V0]
  simp only [hostOps0, hostOps0_1, hostOps0_2, hostOps0_3, hostOps0_4, List.flatten_cons, List.flatten_nil, List.append_nil,
    List.cons_append, List.nil_append]
  after_results_simp <;> rfl

set_option maxHeartbeats 4000000 in
set_option maxRecDepth 8192 in
/-- Window 1's array as the region finds it: the first weight matrix, its format narrowed. -/
theorem V_W1 (c : Dev nD) :
    V m c main_v22 = narrowW1 (m ((c : Thread nD τ).loc main_arg2)) := by
  dsimp only [V, V0]
  simp only [hostOps0, hostOps0_1, hostOps0_2, hostOps0_3, hostOps0_4, List.flatten_cons, List.flatten_nil, List.append_nil,
    List.cons_append, List.nil_append]
  after_results_simp <;> rfl

set_option maxHeartbeats 4000000 in
set_option maxRecDepth 8192 in
/-- Window 3's array as the region finds it: the second weight matrix, its format narrowed. -/
theorem V_W2 (c : Dev nD) :
    V m c main_v23 = narrowW2 (m ((c : Thread nD τ).loc main_arg4)) := by
  dsimp only [V, V0]
  simp only [hostOps0, hostOps0_1, hostOps0_2, hostOps0_3, hostOps0_4, List.flatten_cons, List.flatten_nil, List.append_nil,
    List.cons_append, List.nil_append]
  after_results_simp <;> rfl

/-! ## The feature matrix at a real edge -/

/-- A padded endpoint vector at a real edge is the edge table's entry. -/
theorem paddedRow_apply (x1 : IVec S2x3200000 32) (e : Fin 3200000) :
    paddedRow x1 (ix1 (⟨e.val, by have := e.isLt; omega⟩ : Fin 3203072)) = x1 (ix2 (0 : Fin 2) e) := by
  unfold paddedRow
  refine (pad_apply_of_inside _ _ _ _ _ pads_S3200000_S3203072_030720 h_S_ _ (ix1 e) (fun a => by
    match a with
    | ⟨0, _⟩ => show e.val = 0 + e.val * (0 + 1); omega)).trans ?_
  refine (shapeCast_apply _ shapeCasts_S1x3200000_S3200000 (ix1 e) (ix2 (0 : Fin 1) e)
    (by rewrite [Shape.rowMajor_val_two, Shape.rowMajor_val_one]; show 0 * 3200000 + e.val = e.val; omega)).trans ?_
  exact extractStridedSlice_apply _ x1 slices_S2x3200000_S1x3200000_0_0 (ix2 (0 : Fin 1) e) (ix2 (0 : Fin 2) e) (fun a => by
    match a with
    | ⟨0, _⟩ => rfl
    | ⟨1, _⟩ => show e.val = 0 + e.val; omega)

theorem paddedCol_apply (x1 : IVec S2x3200000 32) (e : Fin 3200000) :
    paddedCol x1 (ix1 (⟨e.val, by have := e.isLt; omega⟩ : Fin 3203072)) = x1 (ix2 (1 : Fin 2) e) := by
  unfold paddedCol
  refine (pad_apply_of_inside _ _ _ _ _ pads_S3200000_S3203072_030720 h_S_ _ (ix1 e) (fun a => by
    match a with
    | ⟨0, _⟩ => show e.val = 0 + e.val * (0 + 1); omega)).trans ?_
  refine (shapeCast_apply _ shapeCasts_S1x3200000_S3200000 (ix1 e) (ix2 (0 : Fin 1) e)
    (by rewrite [Shape.rowMajor_val_two, Shape.rowMajor_val_one]; show 0 * 3200000 + e.val = e.val; omega)).trans ?_
  exact extractStridedSlice_apply _ x1 slices_S2x3200000_S1x3200000_1_0 (ix2 (0 : Fin 1) e) (ix2 (1 : Fin 2) e) (fun a => by
    match a with
    | ⟨0, _⟩ => rfl
    | ⟨1, _⟩ => show e.val = 0 + e.val; omega)

/-- The start-index column at position `r` is the wrapped node number there. -/
theorem startColumn_apply (P : IVec S3203072 32) (r : Fin 3203072) :
    startColumn P (ix2 r (⟨0, Nat.one_pos⟩ : Fin 1)) = wrapNode (P (ix1 r)) := by
  unfold startColumn
  refine (broadcastInDim_apply _ bcast_S3203072_S3203072x1_0 _ (ix2 r (⟨0, Nat.one_pos⟩ : Fin 1)) (ix1 r) (fun a => by
    match a with
    | ⟨0, _⟩ => show r.val = if (3203072 : Nat) = 1 then 0 else r.val; rw [if_neg (by decide)])).trans ?_
  rfl

/-- THE FEATURE MATRIX AT A REAL EDGE `e` AND COLUMN `j` is entry `j` of the edge's feature row. -/
theorem features_apply (x0 : FVec Ideal S100000x16 .f32) (x1 : IVec S2x3200000 32) (e : Fin 3200000) (j : Fin 32) :
    features x0 x1 (ix2 (⟨e.val, by have := e.isLt; omega⟩ : Fin 3203072) j) = featRow x0 x1 e j := by
  have he := e.isLt
  have hj := j.isLt
  unfold features featRow
  rw [truncf_apply]
  by_cases h : j.val < 16
  · rw [dif_pos h]
    refine (concatenate_pair_apply_left (t := S3203072x32) (s₁ := S3203072x16) (s₂ := S3203072x16) (1 : Fin 2) _ _
      concatenates_S3203072x16_S3203072x16_S3203072x32_d1 (ix2 (⟨e.val, by omega⟩ : Fin 3203072) j) rfl
      (ix2 (⟨e.val, by omega⟩ : Fin 3203072) (⟨j.val, h⟩ : Fin 16)) (fun b => by
        match b with
        | ⟨0, _⟩ => rfl
        | ⟨1, _⟩ => rfl)).trans ?_
    refine (gather_rows_apply (N := 100000) (D := 16) (R := 3203072) (by decide)
      gather_S100000x16_S3203072x1_S3203072x16_1_0_n_n_0_1_116_wf x0 (startColumn (paddedCol x1)) (⟨e.val, by omega⟩ : Fin 3203072)
      (⟨j.val, h⟩ : Fin 16)).trans ?_
    rw [startColumn_apply, paddedCol_apply]
    rfl
  · rw [dif_neg h]
    refine (concatenate_pair_apply_right (t := S3203072x32) (s₁ := S3203072x16) (s₂ := S3203072x16) (1 : Fin 2) _ _
      concatenates_S3203072x16_S3203072x16_S3203072x32_d1 (ix2 (⟨e.val, by omega⟩ : Fin 3203072) j) rfl rfl
      (ix2 (⟨e.val, by omega⟩ : Fin 3203072) (⟨j.val - 16, by omega⟩ : Fin 16)) (fun b hb => by
        match b with
        | ⟨0, _⟩ => rfl
        | ⟨1, _⟩ => exact absurd rfl hb) (by show (j.val - 16) + 16 = j.val; omega)).trans ?_
    refine (gather_rows_apply (N := 100000) (D := 16) (R := 3203072) (by decide)
      gather_S100000x16_S3203072x1_S3203072x16_1_0_n_n_0_1_116_wf x0 (startColumn (paddedRow x1)) (⟨e.val, by omega⟩ : Fin 3203072)
      (⟨j.val - 16, by omega⟩ : Fin 16)).trans ?_
    rw [startColumn_apply, paddedRow_apply]
    rfl

end Cert.EdgeNet.Host

end
-- ==== Proof.KernelValue.lean ====
/-
  The kernel program's result is the edge scores.

  The region walks 391 grid points; point `t` fetches rows `8192·t … 8192·t + 8191` of the feature matrix, finds the
  weights and biases whole, and writes back rows `8192·t … 8192·t + 8191` of a `[3203072, 1]` array. By the body's value
  at a row, what point `t` writes back is block `t` of ONE whole-array function: row `r` holds the perceptron applied to
  row `r` of the feature matrix. The 391 blocks cover the array (row `r` lies in block `r / 8192`), so the array ends at
  that function. The program's last line keeps rows `0 … 3199999`, the real edges, where a feature-matrix row is the
  edge's feature row: the result is the edge scores.
-/
import proofs.«414228_j26182120636655_3_alg».proof.Proof.KernelRow
import proofs.«414228_j26182120636655_3_alg».proof.Proof.KernelHost

set_option maxRecDepth 16384

noncomputable section

namespace Cert.EdgeNet.Value

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen Cert.EdgeNet Cert.EdgeNet.Body Cert.EdgeNet.Host

variable (m : (ℓ : Loc nD τ sig) → Buf (Elt Ideal) ℓ) (ρ : Dev nD → PrngReg)

/-- The whole padded score array as a function of the feature matrix: row `r` is the perceptron on row `r`. -/
def paddedScores (B : S3203072x32.Idx → EReal) (W1 : S32x8.Idx → EReal) (b1 : S8.Idx → EReal) (W2 : S8x1.Idx → EReal)
    (b2 : S1.Idx → EReal) : S3203072x1.Idx → EReal :=
  fun i => mlpRow (fun j => B (ix2 (i 0) j)) W1 b1 W2 b2

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the feature window and the output window are at block `t` of their row axis,
    every other window at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-! ## The input blocks as rows of the arrays the region finds -/

/-- The feature block at point `t`, row `p`, is row `8192·t + p` of the feature matrix. -/
theorem featBlock_apply (c : Dev nD) (t : Fin cfg0.N) (p : Fin 8192) (j : Fin 32) (r : Fin 3203072) (hr : r.val = 8192 * t.val + p.val) :
    (iblk m c 0 t : Vec Ideal S8192x32 .bf16) (ix2 p j) = (V m c main_v21 : S3203072x32.Idx → EReal) (ix2 r j) := by
  obtain ⟨e0, e1, -⟩ := idx_facts t
  unfold iblk
  rw [View.read_apply]
  show V m c main_v21 _ = V m c main_v21 _
  congr 1
  funext a
  apply Fin.ext
  match a with
  | ⟨0, _⟩ => show win0_0.index t (0 : Fin 2) * 8192 + 1 * p.val = r.val; rw [e0, hr]; omega
  | ⟨1, _⟩ => show win0_0.index t (1 : Fin 2) * 32 + 1 * j.val = j.val; rw [e1]; omega

/-- The first weight matrix's block is the whole matrix, at every point. -/
theorem w1Block_eq (c : Dev nD) (t : Fin cfg0.N) : (iblk m c 1 t : Vec Ideal S32x8 .bf16) = (V m c main_v22 : S32x8.Idx → EReal) := by
  obtain ⟨-, -, e2, e3, -⟩ := idx_facts t
  funext y
  unfold iblk
  rw [View.read_apply]
  show V m c main_v22 _ = V m c main_v22 _
  congr 1
  funext a
  apply Fin.ext
  match a with
  | ⟨0, _⟩ => show win0_1.index t (0 : Fin 2) * 32 + 1 * (y 0).val = (y 0).val; rw [e2]; omega
  | ⟨1, _⟩ => show win0_1.index t (1 : Fin 2) * 8 + 1 * (y 1).val = (y 1).val; rw [e3]; omega

/-- The hidden bias's block is the whole vector. -/
theorem b1Block_eq (c : Dev nD) (t : Fin cfg0.N) : (iblk m c 2 t : Vec Ideal S8 .f32) = (V m c main_arg3 : S8.Idx → EReal) := by
  obtain ⟨-, -, -, -, e4, -⟩ := idx_facts t
  funext y
  unfold iblk
  rw [View.read_apply]
  show V m c main_arg3 _ = V m c main_arg3 _
  congr 1
  funext a
  apply Fin.ext
  match a with
  | ⟨0, _⟩ => show win0_2.index t (0 : Fin 1) * 8 + 1 * (y 0).val = (y 0).val; rw [e4]; omega

/-- The second weight matrix's block is the whole matrix. -/
theorem w2Block_eq (c : Dev nD) (t : Fin cfg0.N) : (iblk m c 3 t : Vec Ideal S8x1 .bf16) = (V m c main_v23 : S8x1.Idx → EReal) := by
  obtain ⟨-, -, -, -, -, e5, e6, -⟩ := idx_facts t
  funext y
  unfold iblk
  rw [View.read_apply]
  show V m c main_v23 _ = V m c main_v23 _
  congr 1
  funext a
  apply Fin.ext
  match a with
  | ⟨0, _⟩ => show win0_3.index t (0 : Fin 2) * 8 + 1 * (y 0).val = (y 0).val; rw [e5]; omega
  | ⟨1, _⟩ => show win0_3.index t (1 : Fin 2) * 1 + 1 * (y 1).val = (y 1).val; rw [e6]; omega

/-- The output bias's block is the whole vector. -/
theorem b2Block_eq (c : Dev nD) (t : Fin cfg0.N) : (iblk m c 4 t : Vec Ideal S1 .f32) = (V m c main_arg5 : S1.Idx → EReal) := by
  obtain ⟨-, -, -, -, -, -, -, e7, -⟩ := idx_facts t
  funext y
  unfold iblk
  rw [View.read_apply]
  show V m c main_arg5 _ = V m c main_arg5 _
  congr 1
  funext a
  apply Fin.ext
  match a with
  | ⟨0, _⟩ => show win0_4.index t (0 : Fin 1) * 1 + 1 * (y 0).val = (y 0).val; rw [e7]; omega

/-! ## What a point writes back -/

/-- The body's stored block at row `p`, for ANY five input blocks that are row block `t` of a feature matrix `B` and the
    whole weights and biases: the padded score array at row `8192·t + p`. -/
theorem stored_row (B : S3203072x32.Idx → EReal) (W1 : S32x8.Idx → EReal) (b1 : S8.Idx → EReal) (W2 : S8x1.Idx → EReal)
    (b2 : S1.Idx → EReal) (x0 : Vec Ideal S8192x32 .bf16) (x1 : Vec Ideal S32x8 .bf16) (x2 : Vec Ideal S8 .f32)
    (x3 : Vec Ideal S8x1 .bf16) (x4 : Vec Ideal S1 .f32) (p : Fin 8192) (r : Fin 3203072)
    (h0 : ∀ j : Fin 32, x0 (ix2 p j) = B (ix2 r j)) (h1 : x1 = W1) (h2 : x2 = b1) (h3 : x3 = W2) (h4 : x4 = b2) :
    k0_pay1 (F := Ideal) x0 x1 x2 x3 x4 (ix2 p (0 : Fin 1)) = paddedScores B W1 b1 W2 b2 (ix2 r (0 : Fin 1)) := by
  subst h1 h2 h3 h4
  rw [pay_apply]
  unfold paddedScores
  exact congrArg (fun row => mlpRow row x1 x2 x3 x4) (funext h0)

/-- WHAT POINT `t` WRITES BACK is block `t` of the padded score array of the arrays the region finds. -/
theorem flushed_eq (c : Dev nD) (t : Fin cfg0.N) :
    (dats m 0 c).flushed 5 t = ((cfg0.win 5).blk t).view.read (Elt Ideal)
      (paddedScores (V m c main_v21) (V m c main_v22) (V m c main_arg3) (V m c main_v23) (V m c main_arg5)) := by
  show (cfg0.win 5).cut (grid0.coords t) ((dats m 0 c).after 5 t) = _
  rw [after0_5]
  unfold out0_5
  rw [View.canon_unit_zero hz2]
  simp only [View.ld_unit_zero (S := S8192x32) hz2, View.ld_unit_zero (S := S32x8) hz2, View.ld_unit_zero (S := S8) hz1,
    View.ld_unit_zero (S := S8x1) hz2, View.ld_unit_zero (S := S1) hz1]
  obtain ⟨-, -, -, -, -, -, -, -, e8, e9⟩ := idx_facts t
  have ht : t.val < 391 := Nat.lt_of_lt_of_eq t.isLt N_0
  funext y
  obtain ⟨p, z, rfl⟩ : ∃ (p : Fin 8192) (z : Fin 1), y = ix2 p z := ⟨y 0, y 1, eq_ix2 y⟩
  have hz : z = 0 := Subsingleton.elim _ _
  subst hz
  have hp := p.isLt
  rw [View.read_apply]
  have hemb : ((cfg0.win 5).blk t).view.emb (ix2 p (0 : Fin 1)) = ix2 (⟨8192 * t.val + p.val, by omega⟩ : Fin 3203072) (0 : Fin 1) := by
    funext a
    apply Fin.ext
    match a with
    | ⟨0, _⟩ => show win0_5.index t (0 : Fin 2) * 8192 + 1 * p.val = 8192 * t.val + p.val; rw [e8]; omega
    | ⟨1, _⟩ => show win0_5.index t (1 : Fin 2) * 1 + 1 * 0 = 0; rw [e9]
  rw [hemb]
  exact stored_row (V m c main_v21) (V m c main_v22) (V m c main_arg3) (V m c main_v23) (V m c main_arg5)
    (iblk m c 0 t) (iblk m c 1 t) (iblk m c 2 t) (iblk m c 3 t) (iblk m c 4 t) p (⟨8192 * t.val + p.val, by omega⟩ : Fin 3203072)
    (fun j => featBlock_apply m c t p j (⟨8192 * t.val + p.val, by omega⟩ : Fin 3203072) rfl)
    (w1Block_eq m c t) (b1Block_eq m c t) (w2Block_eq m c t) (b2Block_eq m c t)

/-! ## The cover, and the array after the region -/

/-- An index of the array is in point `t`'s block iff each coordinate is in the block's range on its axis. -/
theorem mem_blk (t : Fin cfg0.N) (i : S3203072x1.Idx) :
    i ∈ ((cfg0.win 5).blk t).view.set ↔ ∀ a : Fin 2, win0_5.index t a * S8192x1.size a ≤ (i a).val
      ∧ (i a).val < win0_5.index t a * S8192x1.size a + S8192x1.size a := by
  show i ∈ ((View.whole main_v24).slice (win0_5.rect t)).set ↔ _
  rw [View.set_slice_whole, Rect.mem_set_unit]
  exact Iff.rfl

/-- Row `r` lies in the block of point `r / 8192`: the 391 blocks cover the array. -/
theorem covered (i : S3203072x1.Idx) : ∃ t : Fin cfg0.N, (cfg0.win 5).flush t = true ∧ i ∈ ((cfg0.win 5).blk t).view.set := by
  have hi0 : (i 0).val < 3203072 := (i 0).isLt
  have hi1 : (i 1).val < 1 := (i 1).isLt
  have hN : cfg0.N = 391 := N_0
  let t : Fin cfg0.N := ⟨(i 0).val / 8192, by rw [hN]; omega⟩
  obtain ⟨-, -, -, -, -, -, -, -, e8, e9⟩ := idx_facts t
  have ht : t.val = (i 0).val / 8192 := rfl
  refine ⟨t, flush0_5 t, ?_⟩
  rw [mem_blk]
  intro a
  match a with
  | ⟨0, _⟩ =>
    show win0_5.index t (0 : Fin 2) * 8192 ≤ (i 0).val ∧ (i 0).val < win0_5.index t (0 : Fin 2) * 8192 + 8192
    rw [e8, ht]; omega
  | ⟨1, _⟩ =>
    show win0_5.index t (1 : Fin 2) * 1 ≤ (i 1).val ∧ (i 1).val < win0_5.index t (1 : Fin 2) * 1 + 1
    rw [e9]; omega

/-- THE OUTPUT ARRAY AFTER THE REGION: the padded score array of the arrays the region finds. -/
theorem final (c : Dev nD) : (dats m 0 c).arrAt 5 cfg0.N
    = paddedScores (V m c main_v21) (V m c main_v22) (V m c main_arg3) (V m c main_v23) (V m c main_arg5) :=
  (dats m 0 c).arrAt_eq_of_cover 5 _ (fun t _ => flushed_eq m c t) covered

/-! ## The last line, and the result -/

/-- The real edges' rows of the padded score array are the edge scores of the launched arrays. -/
theorem kept_rows (c : Dev nD) :
    extractStridedSlice S3200000x1 ![0, 0]
        (paddedScores (V m c main_v21) (V m c main_v22) (V m c main_arg3) (V m c main_v23) (V m c main_arg5))
        slices_S3203072x1_S3200000x1_0_0
      = scores (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  funext i
  obtain ⟨e, z, rfl⟩ : ∃ (e : Fin 3200000) (z : Fin 1), i = ix2 e z := ⟨i 0, i 1, eq_ix2 i⟩
  have hz : z = 0 := Subsingleton.elim _ _
  subst hz
  have he := e.isLt
  refine (extractStridedSlice_apply _ _ slices_S3203072x1_S3200000x1_0_0 (ix2 e (0 : Fin 1))
    (ix2 (⟨e.val, by omega⟩ : Fin 3203072) (0 : Fin 1)) (fun a => by
      match a with
      | ⟨0, _⟩ => show e.val = 0 + e.val; omega
      | ⟨1, _⟩ => rfl)).trans ?_
  unfold paddedScores scores
  rw [V_features, V_W1, V_W2, V_main_arg3, V_main_arg5, narrowW1_eq, narrowW2_eq]
  exact congrArg (fun row => mlpRow row _ _ _ _) (funext fun j => features_apply _ _ e j)

/-- What the program's last line leaves in the result buffer. -/
theorem result_eq (c : Dev nD) :
    Pipeline.afterTail₀ cfgs (dats m) 0 (V0 m) [hostOps1] c main_v25
      = scores (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  unfold Pipeline.afterTail₀
  show StableHlo.after hostOps1 _ (Proc.devRef .tc main_v25) = _
  after_results
  rw [Pipeline.withArrays_arr spec0 launch0.win.arr_inj c _ _ 5, final]
  exact kept_rows m c

/-! ## The run, read -/

/-- Every weakly fair execution of the kernel program ends with the result buffer at the edge scores of the launched
    arrays, and the arguments as launched. -/
theorem run : θ_run defs (onTc (τ := τ) (main (F := Ideal))) ⟨m, fun _ => 0, ρ⟩ fun r => ∀ c : Dev nD,
      r.2.mem ((c.tc : Thread nD τ).loc main_v25)
        = scores (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v25 (Pipeline.mem_restRefs_of main_v25 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c)),
      ((h c).1 4).trans (((dats m 0 c).arrAt_in 4 rfl _).trans ((A_eq m c 4).trans (V_main_arg5 m c)))⟩)
    (run_main m ρ)

end Cert.EdgeNet.Value

end
-- ==== Proof.lean ====
/-
  An edge network over a graph: for each of 3200000 edges, the 16 features of its "col" node and the 16 of its "row"
  node, taken from a table of 100000 nodes, go through a two-layer perceptron, `σ (tanh (row · W1 + b1) · W2 + b2)`.

  The reference gathers all feature rows and applies two whole matrix products. The kernel program pads the edge list
  to 391 blocks of 8192, gathers the same rows on the host, runs the perceptron block by block in one pallas_call
  (with the matrix products' operands in a narrower float format), and cuts the padding off. Over the extended reals
  the two compute one function of the inputs, the edge scores (Proof/Spec.lean):
    * a change of float format is the identity, a matrix product into a zero accumulator is the finite sum over its
      contracted axis whatever the tiling, and `σ z = 1 / (1 + e^(−z))` is the logistic function's definition, so no
      law beyond the definitions is needed and the inputs' finiteness is never used;
    * an edge's score depends only on its own feature row, so a block of the tiled evaluation is a block of the whole
      array's, and the padded tail never reaches the result.
  Proof/RefValue.lean reads the reference's run at an index; Proof/KernelRow.lean the kernel body at a row of a block;
  Proof/KernelHost.lean the arrays the region finds; Proof/KernelValue.lean puts the 391 blocks together and reads the
  program's run. The three frames are the generated ones (the reference's is its run with the result dropped), and
  the idealization rewrote nothing, so `preserves` has nothing to show.
-/
import proofs.«414228_j26182120636655_3_alg».proof.Defs
import proofs.«414228_j26182120636655_3_alg».proof.Proof.Gen.Kernel
import proofs.«414228_j26182120636655_3_alg».proof.Proof.Gen.Kernel.Skeleton
import proofs.«414228_j26182120636655_3_alg».proof.Proof.Gen.Kernel.Launch
import proofs.«414228_j26182120636655_3_alg».proof.Proof.Gen.Kernel.Points
import proofs.«414228_j26182120636655_3_alg».proof.Proof.Gen.Kernel.Frame
import proofs.«414228_j26182120636655_3_alg».proof.Proof.Gen.KernelIdeal
import proofs.«414228_j26182120636655_3_alg».proof.Proof.Gen.KernelIdeal.Skeleton
import proofs.«414228_j26182120636655_3_alg».proof.Proof.Gen.KernelIdeal.Launch
import proofs.«414228_j26182120636655_3_alg».proof.Proof.Gen.KernelIdeal.Points
import proofs.«414228_j26182120636655_3_alg».proof.Proof.Gen.KernelIdeal.Frame
import proofs.«414228_j26182120636655_3_alg».proof.Proof.Gen.ReferenceIdeal
import proofs.«414228_j26182120636655_3_alg».proof.Proof.Gen.Pre_finite_inputs
import proofs.«414228_j26182120636655_3_alg».proof.Proof.Gen.ReferenceIdeal.Run
import proofs.«414228_j26182120636655_3_alg».proof.Proof.Gen.ReferenceIdeal.Read
import proofs.«414228_j26182120636655_3_alg».proof.Proof.RefValue
import proofs.«414228_j26182120636655_3_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and keeps its arguments: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the six inputs both programs end with the edge scores of those inputs. -/
theorem algebraic : Cert.algebraic_KernelIdeal_ReferenceIdeal := by
  intro m ρ m' ρ' _ hagree
  refine ⟨_, Cert.EdgeNet.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.EdgeNet.Ref.result_eq, (hagree c).1, (hagree c).2.1, (hagree c).2.2.1,
    (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
